-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) (main_arg6 : FVec F S64x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩
abbrev S1x16 : Shape := ⟨2, ![1, 16]⟩
abbrev S50000x16 : Shape := ⟨2, ![50000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 85
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S650000x1, .f32⟩
  | .hbm, ⟨49, _⟩ => ⟨S50000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x64, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x64, .f32⟩
  | .hbm, ⟨76, _⟩ => ⟨S650000x64, .f32⟩
  | .hbm, ⟨77, _⟩ => ⟨S650000x64, .f32⟩
  | .hbm, ⟨78, _⟩ => ⟨S_, .f32⟩
  | .hbm, ⟨79, _⟩ => ⟨S50000x64, .f32⟩
  | .hbm, ⟨80, _⟩ => ⟨S650000x1, .i32⟩
  | .hbm, ⟨81, _⟩ => ⟨S50000x64, .f32⟩
  | .hbm, ⟨82, _⟩ => ⟨S1x64, .f32⟩
  | .hbm, ⟨83, _⟩ => ⟨S1x16, .f32⟩
  | .hbm, ⟨84, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S16_S1x16 : S16.ShapeCasts S1x16
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S50000x16.size a
  hwx2_4 : ∀ i : grid2.Coords, EltTy.bits .f32 = 32 ∨ (Rect.block (s := S50000x16) S5000x16.size (cc2_transform_4 i) (hinb2_4 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S50000x16 : Shape := ⟨2, ![50000, 16]⟩
abbrev S1x16 : Shape := ⟨2, ![1, 16]⟩
abbrev S50000x1 : Shape := ⟨2, ![50000, 1]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S64x16, .f32⟩
  | 7 => ⟨S16, .f32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S50000x128, .f32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S_, .f32⟩
  | 73 => ⟨S650000, .f32⟩
  | 74 => ⟨S_, .f32⟩
  | 75 => ⟨S50000, .f32⟩
  | 76 => ⟨S650000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000, .f32⟩
  | 104 => ⟨S650000, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000x64, .f32⟩
  | 114 => ⟨S650000x1, .f32⟩
  | 115 => ⟨S650000x64, .f32⟩
  | 116 => ⟨S650000x64, .f32⟩
  | 117 => ⟨S_, .f32⟩
  | 118 => ⟨S50000x64, .f32⟩
  | 119 => ⟨S650000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S50000x16, .f32⟩
  | _ => ⟨S50000x128, .f32⟩

abbrev hbmTy0_1 (i : Nat) : BufTy := match i % 128 with
  | 0 => ⟨S1x16, .f32⟩
  | 1 => ⟨S50000x16, .f32⟩
  | 2 => ⟨S50000x16, .f32⟩
  | 3 => ⟨S_, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x16, .f32⟩
  | 10 => ⟨S50000x16, .f32⟩
  | 11 => ⟨S50000x16, .f32⟩
  | 12 => ⟨S_, .f32⟩
  | 13 => ⟨S50000, .f32⟩
  | 14 => ⟨S50000x1, .f32⟩
  | 15 => ⟨S50000x1, .f32⟩
  | 16 => ⟨S50000x16, .f32⟩
  | 17 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call4_cst : Ref sig .tc := ⟨.hbm, 131, rfl⟩
abbrev main_call4_v0 : Ref sig .tc := ⟨.hbm, 132, rfl⟩
abbrev main_call4_cst_0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_1 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_v93 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x16_S50000x16_1_0_0_1_n_n_wf : DotDims.WF S50000x64 S64x16 S50000x16 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Product0.lean ====
/-
  The first dense layer's product. The region walks the 50000 rows of x in ten blocks of 5000 rows; at each block it
  multiplies the block by the whole 128 x 128 weight matrix on the matrix unit, into a zero accumulator. Read at the
  extended reals, entry (r, j) of the block's result is the sum over k of x[r, k] * w[k, j] (rounding the operands to
  bf16 changes nothing there), and row r of block t is row 5000 t + r of the array, so the array the region leaves is
  the whole product x * w, entry by entry.
-/
import proofs.«133095_j75256416961205_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.SL.Sem Idealize.ShloMosaic.ValueIdx
open Idealize.ShloMosaic.Pipeline (Dat)

/-- Row r, column k of a two-dimensional array. -/
abbrev at2 {A B : Nat} (r : Nat) (hr : r < A) (k : Nat) (hk : k < B) : (⟨2, ![A, B]⟩ : Shape).Idx := fun a => match a with
  | ⟨0, _⟩ => ⟨r, hr⟩
  | ⟨1, _⟩ => ⟨k, hk⟩

/-- The product of a 50000 x 128 array with a 128 x 128 matrix, entry by entry. -/
def product (x : S50000x128.Idx → EReal) (w : S128x128.Idx → EReal) : S50000x128.Idx → EReal := fun i =>
  ∑ k : Fin 128, x (at2 (i 0).val (i 0).isLt k.val k.isLt) * w (at2 k.val k.isLt (i 1).val (i 1).isLt)

abbrev D0 := dot_S5000x128_S128x128_S5000x128_1_0_0_1_n_n

theorem lhs_0 (i : S5000x128.Idx) (q : D0.contr.Idx) : (D0.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : D0.contr.Idx) : (D0.lhsIdx i q 1).val = (q ⟨0, by decide⟩).val :=
  dot_S5000x128_S128x128_S5000x128_1_0_0_1_n_n.lhsIdx_val_of_single rfl i q
theorem rhs_0 (i : S5000x128.Idx) (q : D0.contr.Idx) : (D0.rhsIdx i q 0).val = (q ⟨0, by decide⟩).val :=
  dot_S5000x128_S128x128_S5000x128_1_0_0_1_n_n.rhsIdx_val_of_single rfl i q
theorem rhs_1 (i : S5000x128.Idx) (q : D0.contr.Idx) : (D0.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's result at (r, j): the sum over k of the row block's (r, k) times the weights' (k, j). -/
theorem block_apply (x0 : Vec Ideal S5000x128 .f32) (x1 : Vec Ideal S128x128 .f32) (y : S5000x128.Idx) :
    k0_pay1 x0 x1 y = ∑ k : Fin 128, x0 (at2 (y 0).val (y 0).isLt k.val k.isLt) * x1 (at2 k.val k.isLt (y 1).val (y 1).isLt) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = at2 (y 0).val (y 0).isLt k.val k.isLt := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = at2 k.val k.isLt (y 1).val (y 1).isLt := funext fun a => Fin.ext (by
    match a with
    | ⟨0, _⟩ => exact (rhs_0 _ _).trans hk
    | ⟨1, _⟩ => exact rhs_1 _ _)
  rw [truncf_apply, truncf_apply, el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: the row block of x and of the result is the point's number, the weights'
    block is the whole matrix, and no column is cut. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem index_onto : ∀ q : Fin 10, ∃ t : Fin cfg0.N, win0_2.index t = ![q.val, 0] :=
  (by decide +kernel : ∀ q : Fin 10, ∃ t : Fin grid0.N, win0_2.index t = ![q.val, 0])

/-- What point t writes back is block t of the product of the two arrays as the region finds them. -/
theorem block_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_facts t
  funext y
  show k0_pay1 (iblk0 V c 0 t) (iblk0 V c 1 t) y = product (V c main_arg0) (V c main_arg2) (((cfg0.win 2).blk t).view.emb y)
  refine (block_apply (iblk0 V c 0 t) (iblk0 V c 1 t) y).trans ?_
  unfold product
  refine Finset.sum_congr rfl fun k _ => ?_
  have hy0 : (y 0).val < 5000 := (y 0).isLt
  have hy1 : (y 1).val < 128 := (y 1).isLt
  have hx : iblk0 V c 0 t (at2 (y 0).val (y 0).isLt k.val k.isLt)
      = V c main_arg0 (at2 ((((cfg0.win 2).blk t).view.emb y) 0).val ((((cfg0.win 2).blk t).view.emb y) 0).isLt k.val k.isLt) := by
    show V c main_arg0 (((cfg0.win 0).blk t).view.emb (at2 (y 0).val (y 0).isLt k.val k.isLt)) = _
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hw : iblk0 V c 1 t (at2 k.val k.isLt (y 1).val (y 1).isLt)
      = V c main_arg2 (at2 k.val k.isLt ((((cfg0.win 2).blk t).view.emb y) 1).val ((((cfg0.win 2).blk t).view.emb y) 1).isLt) := by
    show V c main_arg2 (((cfg0.win 1).blk t).view.emb (at2 k.val k.isLt (y 1).val (y 1).isLt)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [hx, hw]

/-- An index of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the array lies in the block of the point numbered by its row divided by 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves is the product of the two arrays it found. -/
theorem array_eq (c : Dev nD) : (dat0 V c).arrAt 2 cfg0.N = product (V c main_arg0) (V c main_arg2) :=
  (dat0 V c).arrAt_eq_of_cover 2 _ (fun t _ => block_eq V c t) covered

end Cert.KernelIdeal.Product0

end
-- ==== Proof.Hidden1.lean ====
/-
  The second dense layer. The region walks the 50000 rows of the aggregated first layer in ten blocks of 5000 rows;
  at each block it adds the bias row to every row, clamps at zero, and multiplies by the whole 128 x 64 weight matrix
  into a zero accumulator. At the extended reals entry (r, j) of a block's result is the sum over k of
  max (a[r, k] + b[k]) 0 * w[k, j], and row r of block t is row 5000 t + r of the array.
-/
import proofs.«133095_j75256416961205_1_alg».proof.Proof.Product0
import Idealize.ShloMosaic.Lib.ValueLayout

set_option maxRecDepth 16384

noncomputable section

namespace Cert.KernelIdeal.Hidden1

open Cert.KernelIdeal Cert.KernelIdeal.Gen Cert.KernelIdeal.Product0
open Idealize.ShloMosaic Idealize.ShloMosaic.TcCoe Idealize.SL.Sem Idealize.ShloMosaic.ValueIdx
open Idealize.ShloMosaic.Pipeline (Dat)

/-- Bias, clamp at zero, then the product with the weights, entry by entry. -/
def hidden (a : S50000x128.Idx → EReal) (b : S1x128.Idx → EReal) (w : S128x64.Idx → EReal) : S50000x64.Idx → EReal := fun i =>
  ∑ k : Fin 128, max (a (at2 (A := 50000) (B := 128) (i 0).val (i 0).isLt k.val k.isLt) + b (at2 (A := 1) (B := 128) 0 Nat.one_pos k.val k.isLt)) (Ideal.ofBits .f32 0x00000000#32)
    * w (at2 (A := 128) (B := 64) k.val k.isLt (i 1).val (i 1).isLt)

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The bias row broadcast over the block, read at (r, k), is the row's entry k. -/
theorem bias_apply (x1 : Vec Ideal S1x128 .f32) (r : Nat) (hr : r < 5000) (k : Nat) (hk : k < 128) :
    broadcastTo S5000x128 x1 broadcasts_S1x128_S5000x128 (at2 (A := 5000) (B := 128) r hr k hk) = x1 (at2 (A := 1) (B := 128) 0 Nat.one_pos k hk) :=
  broadcastTo_1b_ab_apply x1 broadcasts_S1x128_S5000x128 ⟨r, hr⟩ ⟨k, hk⟩

/-- One block's result at (r, j). -/
theorem block_apply (x0 : Vec Ideal S5000x128 .f32) (x1 : Vec Ideal S1x128 .f32) (x2 : Vec Ideal S128x64 .f32) (y : S5000x64.Idx) :
    k1_pay1 x0 x1 x2 y = ∑ k : Fin 128, max (x0 (at2 (A := 5000) (B := 128) (y 0).val (y 0).isLt k.val k.isLt) + x1 (at2 (A := 1) (B := 128) 0 Nat.one_pos k.val k.isLt)) (Ideal.ofBits .f32 0x00000000#32)
      * x2 (at2 (A := 128) (B := 64) k.val k.isLt (y 1).val (y 1).isLt) := by
  unfold k1_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = at2 (A := 5000) (B := 128) (y 0).val (y 0).isLt k.val k.isLt := funext fun a => Fin.ext (by
    match a with
    | ⟨0, _⟩ => exact lhs_0 _ _
    | ⟨1, _⟩ => exact (lhs_1 _ _).trans hk)
  have er : dot_S5000x128_S128x64_S5000x64_1_0_0_1_n_n.rhsIdx y ((ValueIdx.contrEquiv1 dot_S5000x128_S128x64_S5000x64_1_0_0_1_n_n 128 rfl rfl).symm k) = at2 (A := 128) (B := 64) k.val k.isLt (y 1).val (y 1).isLt := funext fun a => Fin.ext (by
    match a with
    | ⟨0, _⟩ => exact (rhs_0 _ _).trans hk
    | ⟨1, _⟩ => exact rhs_1 _ _)
  rw [truncf_apply, truncf_apply, el, er, maximumf_apply, addf_apply]
  exact congrArg (fun v => max (x0 (at2 (A := 5000) (B := 128) (y 0).val (y 0).isLt k.val k.isLt) + v) (Ideal.ofBits .f32 0x00000000#32)
    * x2 (at2 (A := 128) (B := 64) k.val k.isLt (y 1).val (y 1).isLt)) (bias_apply x1 (y 0).val (y 0).isLt k.val k.isLt)

/-! ## From the blocks to the array -/

variable (V : (c : Dev nD) → (b : Ref sig .tc) → Buf (Elt Ideal) ((c : Thread nD τ).loc b))

/-- The index maps over the ten grid points. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0
    ∧ win1_3.index t (0 : Fin 2) ≤ 9 :=
  (by decide +kernel : ∀ t : Fin grid1.N, _)

theorem index_onto : ∀ q : Fin 10, ∃ t : Fin cfg1.N, win1_3.index t = ![q.val, 0] :=
  (by decide +kernel : ∀ q : Fin 10, ∃ t : Fin grid1.N, win1_3.index t = ![q.val, 0])

/-- What point t writes back is block t of `hidden` of the three arrays as the region finds them. -/
theorem block_eq (c : Dev nD) (t : Fin cfg1.N) :
    (dat1 V c).flushed 3 t = ((cfg1.win 3).blk t).view.read (Elt Ideal) (hidden (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x64) origin]
  obtain ⟨e0, e1, e2, e3, e4, e5, e6, e7⟩ := index_facts t
  funext y
  show k1_pay1 (iblk1 V c 0 t) (iblk1 V c 1 t) (iblk1 V c 2 t) y = hidden (V c main_v43) (V c main_v44) (V c main_arg4) (((cfg1.win 3).blk t).view.emb y)
  refine (block_apply (iblk1 V c 0 t) (iblk1 V c 1 t) (iblk1 V c 2 t) y).trans ?_
  unfold hidden
  refine Finset.sum_congr rfl fun k _ => ?_
  have hy0 : (y 0).val < 5000 := (y 0).isLt
  have hy1 : (y 1).val < 64 := (y 1).isLt
  have ha : iblk1 V c 0 t (at2 (A := 5000) (B := 128) (y 0).val (y 0).isLt k.val k.isLt)
      = V c main_v43 (at2 (A := 50000) (B := 128) ((((cfg1.win 3).blk t).view.emb y) 0).val ((((cfg1.win 3).blk t).view.emb y) 0).isLt k.val k.isLt) := by
    show V c main_v43 (((cfg1.win 0).blk t).view.emb (at2 (A := 5000) (B := 128) (y 0).val (y 0).isLt k.val k.isLt)) = _
    refine congrArg (V c main_v43) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have hb : iblk1 V c 1 t (at2 (A := 1) (B := 128) 0 Nat.one_pos k.val k.isLt) = V c main_v44 (at2 (A := 1) (B := 128) 0 Nat.one_pos k.val k.isLt) := by
    show V c main_v44 (((cfg1.win 1).blk t).view.emb (at2 (A := 1) (B := 128) 0 Nat.one_pos k.val k.isLt)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have hw : iblk1 V c 2 t (at2 (A := 128) (B := 64) k.val k.isLt (y 1).val (y 1).isLt)
      = V c main_arg4 (at2 (A := 128) (B := 64) k.val k.isLt ((((cfg1.win 3).blk t).view.emb y) 1).val ((((cfg1.win 3).blk t).view.emb y) 1).isLt) := by
    show V c main_arg4 (((cfg1.win 2).blk t).view.emb (at2 (A := 128) (B := 64) k.val k.isLt (y 1).val (y 1).isLt)) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * (y 1).val = win1_3.index t (1 : Fin 2) * 64 + 1 * (y 1).val; omega
  rw [ha, hb, hw]

theorem mem_block (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array the region leaves is `hidden` of the three arrays it found. -/
theorem array_eq (c : Dev nD) : (dat1 V c).arrAt 3 cfg1.N = hidden (V c main_v43) (V c main_v44) (V c main_arg4) :=
  (dat1 V c).arrAt_eq_of_cover 3 _ (fun t _ => block_eq V c t) covered

end Cert.KernelIdeal.Hidden1

end
-- ==== Proof.Boundaries.lean ====
/-
  The contents of the buffers at the boundaries between the host stretches and the three regions. No host operation
  and no region writes an argument, so an argument read at any boundary is the launch memory's; the two bias rows the
  second and third regions read are the bias vectors viewed as one row; and each region's output array, at the boundary
  after it, is that region's function of the arrays it found.
-/
import proofs.«133095_j75256416961205_1_alg».proof.Proof.Product0
import proofs.«133095_j75256416961205_1_alg».proof.Proof.Hidden1
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer none of the first three host stretches writes holds, at the first region's entry, what was launched. -/
theorem W3_main_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results

theorem W3_main_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results

theorem W3_main_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results

theorem W3_main_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results

theorem W3_main_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results

theorem W3_main_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results

theorem W3_main_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results

/-- The first region's output array, at the boundary after it: the product of x with the first weights. -/
theorem W4_main_v31 (c : Dev nD) :
    W4 m ρ c (Proc.devRef .tc main_v31) = Product0.product (m ((c : Thread nD τ).loc main_arg0)) (m ((c : Thread nD τ).loc main_arg2)) := by
  refine (W4_arr m ρ c 2).trans ((Product0.array_eq (V3 m ρ) c).trans ?_)
  show Product0.product (W3 m ρ c (Proc.devRef .tc main_arg0)) (W3 m ρ c (Proc.devRef .tc main_arg2)) = _
  rw [W3_main_arg0, W3_main_arg2]

/-- The second region's weights and bias row at its entry. -/
theorem W5_main_arg4 (c : Dev nD) : W5 m ρ c (Proc.devRef .tc main_arg4) = m ((c : Thread nD τ).loc main_arg4) := by
  show StableHlo.after hostOps1 (W4 m ρ c) (Proc.devRef .tc main_arg4) = _
  dsimp only [hostOps1]
  after_results
  exact (W4_of_ne m ρ c main_arg4 (by decide)).trans (W3_main_arg4 m ρ c)

theorem W5_main_v44 (c : Dev nD) :
    W5 m ρ c (Proc.devRef .tc main_v44) = shapeCast S1x128 (m ((c : Thread nD τ).loc main_arg3)) shapeCasts_S128_S1x128 := by
  show StableHlo.after hostOps1 (W4 m ρ c) (Proc.devRef .tc main_v44) = _
  dsimp only [hostOps1]
  after_results
  rw [show W4 m ρ c (Proc.devRef .tc main_arg3) = m ((c : Thread nD τ).loc main_arg3) from
    (W4_of_ne m ρ c main_arg3 (by decide)).trans (W3_main_arg3 m ρ c)]
  rfl

/-- The second region's output array, at the boundary after it. -/
theorem W6_main_v45 (c : Dev nD) :
    W6 m ρ c (Proc.devRef .tc main_v45)
      = Hidden1.hidden (W5 m ρ c (Proc.devRef .tc main_v43)) (shapeCast S1x128 (m ((c : Thread nD τ).loc main_arg3)) shapeCasts_S128_S1x128)
          (m ((c : Thread nD τ).loc main_arg4)) := by
  refine (W6_arr m ρ c 3).trans ((Hidden1.array_eq (V5 m ρ) c).trans ?_)
  show Hidden1.hidden (W5 m ρ c (Proc.devRef .tc main_v43)) (W5 m ρ c (Proc.devRef .tc main_v44)) (W5 m ρ c (Proc.devRef .tc main_arg4)) = _
  rw [W5_main_v44, W5_main_arg4]

/-- A buffer the second host stretch and the first two regions do not write. -/
theorem W6_of_W3 (c : Dev nD) (b : Ref sig .tc) (h0 : ∀ w, Pipeline.arrRef spec0 w ≠ b) (h1 : ∀ w, Pipeline.arrRef spec1 w ≠ b)
    (hh : StableHlo.after hostOps1 (W4 m ρ c) (Proc.devRef .tc b) = W4 m ρ c (Proc.devRef .tc b)) :
    W6 m ρ c (Proc.devRef .tc b) = W3 m ρ c (Proc.devRef .tc b) :=
  (W6_of_ne m ρ c b h1).trans (hh.trans (W4_of_ne m ρ c b h0))

/-- The third region's weights and bias rows at its entry. -/
theorem W7_main_arg6 (c : Dev nD) : W7 m ρ c (Proc.devRef .tc main_arg6) = m ((c : Thread nD τ).loc main_arg6) := by
  show StableHlo.after hostOps2 (W6 m ρ c) (Proc.devRef .tc main_arg6) = _
  dsimp only [hostOps2]
  after_results
  refine (W6_of_W3 m ρ c main_arg6 (by decide) (by decide) ?_).trans (W3_main_arg6 m ρ c)
  dsimp only [hostOps1]
  after_results

theorem W7_main_v58 (c : Dev nD) :
    W7 m ρ c (Proc.devRef .tc main_v58) = shapeCast S1x64 (m ((c : Thread nD τ).loc main_arg5)) shapeCasts_S64_S1x64 := by
  show StableHlo.after hostOps2 (W6 m ρ c) (Proc.devRef .tc main_v58) = _
  dsimp only [hostOps2]
  after_results
  rw [show W6 m ρ c (Proc.devRef .tc main_arg5) = m ((c : Thread nD τ).loc main_arg5) from
    (W6_of_W3 m ρ c main_arg5 (by decide) (by decide) (by dsimp only [hostOps1]; after_results)).trans (W3_main_arg5 m ρ c)]
  rfl

theorem W7_main_v59 (c : Dev nD) :
    W7 m ρ c (Proc.devRef .tc main_v59) = shapeCast S1x16 (m ((c : Thread nD τ).loc main_arg7)) shapeCasts_S16_S1x16 := by
  show StableHlo.after hostOps2 (W6 m ρ c) (Proc.devRef .tc main_v59) = _
  dsimp only [hostOps2]
  after_results
  rw [show W6 m ρ c (Proc.devRef .tc main_arg7) = m ((c : Thread nD τ).loc main_arg7) from
    (W6_of_W3 m ρ c main_arg7 (by decide) (by decide) (by dsimp only [hostOps1]; after_results)).trans (W3_main_arg7 m ρ c)]
  rfl

end Cert.KernelIdeal.Boundaries

end
-- ==== Proof.HostSide.lean ====
/-
  The host stretches between the regions, read against the reference's stages. Both programs build the edge lists
  (sources and targets with the self loops appended), the degrees, the symmetric normalization and, per layer, the
  gather of the source rows, their scaling and the scatter-add over the targets with the same host operations; the
  reference names each of those values as a stage. Each lemma here takes the contents a stretch starts from as an
  arbitrary valuation whose relevant buffers hold the reference's stages, and concludes that the buffers the stretch
  writes hold the next stages. The reference recomputes the normalization for its second layer: the recomputed stage is
  the same function of the edge list as the first.
-/
import proofs.«133095_j75256416961205_1_alg».proof.Proof.Gen.KernelIdeal.Launch
import proofs.«133095_j75256416961205_1_alg».proof.Proof.RefRead
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.ReferenceIdeal.ReadP

variable {F : FTy → Type} [FloatOps F]

variable (X : Valuation Cert.KernelIdeal.τ Cert.KernelIdeal.sig (Elt F))
variable (x0 : (⟨Cert.KernelIdeal.S50000x128, .f32⟩ : BufTy).Contents (Elt F)) (x1 : (⟨Cert.KernelIdeal.S2x600000, .i32⟩ : BufTy).Contents (Elt F))
  (x2 : (⟨Cert.KernelIdeal.S128x128, .f32⟩ : BufTy).Contents (Elt F)) (x3 : (⟨Cert.KernelIdeal.S128, .f32⟩ : BufTy).Contents (Elt F))
  (x4 : (⟨Cert.KernelIdeal.S128x64, .f32⟩ : BufTy).Contents (Elt F))

/-! ## The first stretch: the edge lists and the degrees -/

theorem sources (h1 : X (Proc.devRef .tc Cert.KernelIdeal.main_arg1) = x1) :
    StableHlo.after Cert.KernelIdeal.Gen.hostOps0 X (Proc.devRef .tc Cert.KernelIdeal.main_v3) = val_main_v3 (F := F) x1 := by
  dsimp only [Cert.KernelIdeal.Gen.hostOps0]
  after_results
  rw [h1]
  rfl

theorem targets (h1 : X (Proc.devRef .tc Cert.KernelIdeal.main_arg1) = x1) :
    StableHlo.after Cert.KernelIdeal.Gen.hostOps0 X (Proc.devRef .tc Cert.KernelIdeal.main_v6) = val_main_v6 (F := F) x1 := by
  dsimp only [Cert.KernelIdeal.Gen.hostOps0]
  after_results
  rw [h1]
  rfl

theorem degreePositive (h1 : X (Proc.devRef .tc Cert.KernelIdeal.main_arg1) = x1) :
    StableHlo.after Cert.KernelIdeal.Gen.hostOps0 X (Proc.devRef .tc Cert.KernelIdeal.main_v12) = val_main_v13 (F := F) x1 := by
  dsimp only [Cert.KernelIdeal.Gen.hostOps0]
  after_results
  rw [h1]
  rfl

theorem degreeRsqrt (h1 : X (Proc.devRef .tc Cert.KernelIdeal.main_arg1) = x1) :
    StableHlo.after Cert.KernelIdeal.Gen.hostOps0 X (Proc.devRef .tc Cert.KernelIdeal.main_v13) = val_main_v14 (F := F) x1 := by
  dsimp only [Cert.KernelIdeal.Gen.hostOps0]
  after_results
  rw [h1]
  rfl

theorem zeroScalar :
    StableHlo.after Cert.KernelIdeal.Gen.hostOps0 X (Proc.devRef .tc Cert.KernelIdeal.main_cst_2) = val_main_cst_2 (F := F) := by
  dsimp only [Cert.KernelIdeal.Gen.hostOps0]
  after_results
  rfl

/-! ## The second stretch: the inverse square root of the degree where it is positive, zero elsewhere -/

set_option maxHeartbeats 4000000 in
theorem invSqrtDegree (h12 : X (Proc.devRef .tc Cert.KernelIdeal.main_v12) = val_main_v13 (F := F) x1)
    (h13 : X (Proc.devRef .tc Cert.KernelIdeal.main_v13) = val_main_v14 (F := F) x1)
    (hc : X (Proc.devRef .tc Cert.KernelIdeal.main_cst_2) = val_main_cst_2 (F := F)) :
    StableHlo.after Cert.KernelIdeal.Gen.hostOps0_1 X (Proc.devRef .tc Cert.KernelIdeal.main_v14) = val_main_v15 (F := F) x1 := by
  dsimp only [Cert.KernelIdeal.Gen.hostOps0_1]
  after_results_simp
  rw [h12, h13, hc]
  simp only [TRef.ofBuf, TRef.toBuf, cast_eq]
  rfl

/-! ## The third stretch: the normalization of each edge, as a column -/

set_option maxHeartbeats 4000000 in
theorem edgeNorm (h3 : X (Proc.devRef .tc Cert.KernelIdeal.main_v3) = val_main_v3 (F := F) x1)
    (h6 : X (Proc.devRef .tc Cert.KernelIdeal.main_v6) = val_main_v6 (F := F) x1)
    (h14 : X (Proc.devRef .tc Cert.KernelIdeal.main_v14) = val_main_v15 (F := F) x1) :
    StableHlo.after Cert.KernelIdeal.Gen.hostOps0_2 X (Proc.devRef .tc Cert.KernelIdeal.main_v30) = val_main_v38 (F := F) x1 := by
  dsimp only [Cert.KernelIdeal.Gen.hostOps0_2]
  after_results_simp
  rw [h3, h6, h14]
  rfl

set_option maxHeartbeats 4000000 in
/-- The reference's second layer recomputes the normalization: the same function of the edge list. -/
theorem edgeNorm_again : val_main_v79 (F := F) x1 = val_main_v38 (F := F) x1 := rfl

/-! ## The fourth stretch: the first layer's aggregation -/

set_option maxHeartbeats 4000000 in
theorem aggregate1 (h31 : X (Proc.devRef .tc Cert.KernelIdeal.main_v31) = val_main_v7 (F := F) x0 x2)
    (h3 : X (Proc.devRef .tc Cert.KernelIdeal.main_v3) = val_main_v3 (F := F) x1)
    (h6 : X (Proc.devRef .tc Cert.KernelIdeal.main_v6) = val_main_v6 (F := F) x1)
    (h30 : X (Proc.devRef .tc Cert.KernelIdeal.main_v30) = val_main_v38 (F := F) x1) :
    StableHlo.after Cert.KernelIdeal.Gen.hostOps1 X (Proc.devRef .tc Cert.KernelIdeal.main_v43) = val_main_v43 (F := F) x0 x1 x2 := by
  dsimp only [Cert.KernelIdeal.Gen.hostOps1]
  after_results_simp
  rw [h31, h3, h6, h30]
  rfl

/-! ## The fifth stretch: the second layer's aggregation -/

set_option maxHeartbeats 4000000 in
theorem aggregate2 (h45 : X (Proc.devRef .tc Cert.KernelIdeal.main_v45) = val_main_v48 (F := F) x0 x1 x2 x3 x4)
    (h3 : X (Proc.devRef .tc Cert.KernelIdeal.main_v3) = val_main_v3 (F := F) x1)
    (h6 : X (Proc.devRef .tc Cert.KernelIdeal.main_v6) = val_main_v6 (F := F) x1)
    (h30 : X (Proc.devRef .tc Cert.KernelIdeal.main_v30) = val_main_v79 (F := F) x1) :
    StableHlo.after Cert.KernelIdeal.Gen.hostOps2 X (Proc.devRef .tc Cert.KernelIdeal.main_v57) = val_main_v84 (F := F) x0 x1 x2 x3 x4 := by
  dsimp only [Cert.KernelIdeal.Gen.hostOps2]
  after_results_simp
  rw [h45, h3, h6, h30]
  rfl

/-! ## Buffers a stretch does not write -/

theorem keep0_1 (b : Ref Cert.KernelIdeal.sig .tc) (hb : b = Cert.KernelIdeal.main_v3 ∨ b = Cert.KernelIdeal.main_v6) :
    StableHlo.after Cert.KernelIdeal.Gen.hostOps0_1 X (Proc.devRef .tc b) = X (Proc.devRef .tc b) := by
  rcases hb with rfl | rfl <;> (dsimp only [Cert.KernelIdeal.Gen.hostOps0_1]; after_results)

theorem keep0_2 (b : Ref Cert.KernelIdeal.sig .tc) (hb : b = Cert.KernelIdeal.main_v3 ∨ b = Cert.KernelIdeal.main_v6) :
    StableHlo.after Cert.KernelIdeal.Gen.hostOps0_2 X (Proc.devRef .tc b) = X (Proc.devRef .tc b) := by
  rcases hb with rfl | rfl <;> (dsimp only [Cert.KernelIdeal.Gen.hostOps0_2]; after_results)

theorem keep1 (b : Ref Cert.KernelIdeal.sig .tc) (hb : b = Cert.KernelIdeal.main_v3 ∨ b = Cert.KernelIdeal.main_v6 ∨ b = Cert.KernelIdeal.main_v30) :
    StableHlo.after Cert.KernelIdeal.Gen.hostOps1 X (Proc.devRef .tc b) = X (Proc.devRef .tc b) := by
  rcases hb with rfl | rfl | rfl <;> (dsimp only [Cert.KernelIdeal.Gen.hostOps1]; after_results)

end Cert.KernelIdeal.HostSide

end
-- ==== Proof.DenseStages.lean ====
/-
  The reference's dense stages are the functions the regions compute. The reference's first product is a host
  dot_general over the whole arrays: at the extended reals its entry (r, j) is the same sum over k. Its second layer adds
  the bias (the vector broadcast first to one row, then over all rows), clamps at zero and takes the host product with the
  second weights: entry (r, j) is the sum over k of max (a[r, k] + b[k]) 0 * w[k, j], the bias row of the kernel being
  the same vector viewed as one row.
-/
import proofs.«133095_j75256416961205_1_alg».proof.Proof.RefRead
import proofs.«133095_j75256416961205_1_alg».proof.Proof.Product0
import proofs.«133095_j75256416961205_1_alg».proof.Proof.Hidden1
import Idealize.ShloMosaic.Lib.ValueLayout

set_option maxRecDepth 16384

noncomputable section

namespace Cert.ReferenceIdeal.DenseStages

open Idealize.ShloMosaic Idealize.ShloMosaic.TcCoe Idealize.SL.Sem Idealize.ShloMosaic.ValueIdx
open Cert.ReferenceIdeal Cert.ReferenceIdeal.ReadP
open Cert.KernelIdeal.Product0 (at2)

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal))

/-- The reference's first product is the product the first region leaves. -/
theorem product_eq : val_main_v7 (F := Ideal) x0 x2 = Cert.KernelIdeal.Product0.product x0 x2 := by
  funext i
  rw [val_main_v7_apply]
  unfold Cert.KernelIdeal.Product0.product
  refine Finset.sum_congr rfl fun k _ => ?_
  have el : lidx_main_v7 i k = at2 (A := 50000) (B := 128) (i 0).val (i 0).isLt k.val k.isLt :=
    funext fun a => by match a with | ⟨0, _⟩ => rfl | ⟨1, _⟩ => rfl
  have er : ridx_main_v7 i k = at2 (A := 128) (B := 128) k.val k.isLt (i 1).val (i 1).isLt :=
    funext fun a => by match a with | ⟨0, _⟩ => rfl | ⟨1, _⟩ => rfl
  rw [el, er]

/-- The bias vector viewed as one row, read at column k. -/
theorem biasRow_apply (k : Fin 128) :
    shapeCast Cert.KernelIdeal.S1x128 x3 Cert.KernelIdeal.Facts₀.shapeCasts_S128_S1x128 (at2 (A := 1) (B := 128) 0 Nat.one_pos k.val k.isLt) = x3 (ix1 k) :=
  shapeCast_a_1a_apply x3 Cert.KernelIdeal.Facts₀.shapeCasts_S128_S1x128 (0 : Fin 1) k

/-- The reference's second product, over its bias and clamp, is `hidden` of its first aggregation. -/
theorem hidden_eq : val_main_v48 (F := Ideal) x0 x1 x2 x3 x4
    = Cert.KernelIdeal.Hidden1.hidden (val_main_v43 (F := Ideal) x0 x1 x2) (shapeCast Cert.KernelIdeal.S1x128 x3 Cert.KernelIdeal.Facts₀.shapeCasts_S128_S1x128) x4 := by
  funext i
  rw [val_main_v48_apply]
  unfold Cert.KernelIdeal.Hidden1.hidden
  refine Finset.sum_congr rfl fun k _ => ?_
  rw [val_main_v47_apply, val_main_v46_apply, val_main_v45_apply, val_main_v44_apply, val_main_call1_v0_apply, val_main_call1_cst_apply]
  have eb : idx_main_v44 (idx_main_v45 (lidx_main_v48 i k)) = ix1 k :=
    funext fun a => by match a with | ⟨0, _⟩ => rfl
  have el : lidx_main_v48 i k = at2 (A := 50000) (B := 128) (i 0).val (i 0).isLt k.val k.isLt :=
    funext fun a => by match a with | ⟨0, _⟩ => rfl | ⟨1, _⟩ => rfl
  have er : ridx_main_v48 i k = at2 (A := 128) (B := 64) k.val k.isLt (i 1).val (i 1).isLt :=
    funext fun a => by match a with | ⟨0, _⟩ => rfl | ⟨1, _⟩ => rfl
  rw [eb, el, er, biasRow_apply]
  rfl

end Cert.ReferenceIdeal.DenseStages

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LogSoftmax2.lean ====
/-
  The last layer and the row-wise log-softmax. The region walks the 50000 rows of the hidden array in ten blocks of
  5000 rows; at each block it adds the hidden bias to every row, clamps at zero, multiplies by the whole 64 x 16 weight
  matrix into a zero accumulator and adds the output bias (the logits of the block's rows), then takes each row's
  maximum m, subtracts it, and subtracts the logarithm of the row's sum of exponentials of the shifted logits. Read at
  the extended reals every step is the exact one (rounding the operands to bf16 changes nothing there); each row is
  treated by itself, and row r of block t is row 5000 t + r of the array, so the array the region leaves is the
  shifted log-softmax of the logits of the whole arrays, entry by entry.
-/
import proofs.«133095_j75256416961205_1_alg».proof.Proof.Product0
import proofs.«133095_j75256416961205_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax2

open Cert.KernelIdeal Cert.KernelIdeal.Gen Cert.KernelIdeal.Product0
open Idealize.ShloMosaic Idealize.ShloMosaic.TcCoe Idealize.SL.Sem Idealize.ShloMosaic.ValueIdx
open Idealize.ShloMosaic.Pipeline (Dat)
open Cert.LibKeepdims

/-- logits of row i0, column i1: the hidden row after bias and relu, times the weights, plus the output bias -/
def logits (a : S50000x64.Idx → EReal) (b : S1x64.Idx → EReal) (w : S64x16.Idx → EReal) (bias : S1x16.Idx → EReal) : S50000x16.Idx → EReal := fun i =>
  (∑ k : Fin 64, max (a (at2 (A := 50000) (B := 64) (i 0).val (i 0).isLt k.val k.isLt) + b (at2 (A := 1) (B := 64) 0 Nat.one_pos k.val k.isLt)) (Ideal.ofBits .f32 0x00000000#32) * w (at2 (A := 64) (B := 16) k.val k.isLt (i 1).val (i 1).isLt)) + bias (at2 (A := 1) (B := 16) 0 Nat.one_pos (i 1).val (i 1).isLt)
/-- a row's maximum, as the fold of max from the value of the word 0xFF800000 -/
def rowMax (l : S50000x16.Idx → EReal) (r : Nat) (hr : r < 50000) : EReal :=
  (Finset.univ : Finset (Fin 16)).fold max (Ideal.ofBits .f32 0xFF800000#32) (fun j => l (at2 (A := 50000) (B := 16) r hr j.val j.isLt))
/-- the shifted log-softmax of each row -/
def logSoftmax (l : S50000x16.Idx → EReal) : S50000x16.Idx → EReal := fun i =>
  (l i - rowMax l (i 0).val (i 0).isLt) - Ideal.log (∑ j : Fin 16, Ideal.exp (l (at2 (A := 50000) (B := 16) (i 0).val (i 0).isLt j.val j.isLt) - rowMax l (i 0).val (i 0).isLt))

abbrev D2 := dot_S5000x64_S64x16_S5000x16_1_0_0_1_n_n

theorem lhs_0 (i : S5000x16.Idx) (q : D2.contr.Idx) : (D2.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_1 (i : S5000x16.Idx) (q : D2.contr.Idx) : (D2.lhsIdx i q 1).val = (q ⟨0, by decide⟩).val :=
  dot_S5000x64_S64x16_S5000x16_1_0_0_1_n_n.lhsIdx_val_of_single rfl i q
theorem rhs_0 (i : S5000x16.Idx) (q : D2.contr.Idx) : (D2.rhsIdx i q 0).val = (q ⟨0, by decide⟩).val :=
  dot_S5000x64_S64x16_S5000x16_1_0_0_1_n_n.rhsIdx_val_of_single rfl i q
theorem rhs_1 (i : S5000x16.Idx) (q : D2.contr.Idx) : (D2.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-! ## One block, read at an index -/

/-- The index (r, k) in the two spellings used here. -/
theorem at2_eq_ix2 {A B : Nat} (r : Fin A) (k : Fin B) : at2 r.val r.isLt k.val k.isLt = ix2 r k :=
  funext fun a => match a with
    | ⟨0, _⟩ => rfl
    | ⟨1, _⟩ => rfl

/-- The block's hidden rows after bias and relu, as the payload builds them. -/
def blkHidden (x0 : Vec Ideal S5000x64 .f32) (x1 : Vec Ideal S1x64 .f32) : FVec Ideal S5000x64 .f32 :=
  maximumf (addf (shapeCast S5000x64 x0 shapeCasts_S5000x64_S5000x64) (broadcastTo S5000x64 (shapeCast S1x64 x1 shapeCasts_S1x64_S1x64) broadcasts_S1x64_S5000x64))
    (broadcast S5000x64 (Scalar.ofBits .f32 0x00000000#32))

/-- The block's logits, as the payload builds them. -/
def blkLogits (x0 : Vec Ideal S5000x64 .f32) (x1 : Vec Ideal S1x64 .f32) (x2 : Vec Ideal S64x16 .f32) (x3 : Vec Ideal S1x16 .f32) : FVec Ideal S5000x16 .f32 :=
  addf (matmul dot_S5000x64_S64x16_S5000x16_1_0_0_1_n_n none (truncf .bf16 (blkHidden x0 x1) bitsLt_bf16_f32) (truncf .bf16 x2 bitsLt_bf16_f32) (constant S5000x16 .f32 0x00000000#32))
    (broadcastTo S5000x16 (shapeCast S1x16 x3 shapeCasts_S1x16_S1x16) broadcasts_S1x16_S5000x16)

/-- Each row's maximum, kept as a column and spread over the row again. -/
def blkMax (l : FVec Ideal S5000x16 .f32) : FVec Ideal S5000x16 .f32 :=
  broadcastTo S5000x16 (shapeCast S5000x1 (multiReduction .maximumf [1] S5000 l 0xFF800000#32 reduces_S5000x16_S5000 (.inl rfl) rfl) shapeCasts_S5000_S5000x1) broadcasts_S5000x1_S5000x16

/-- The logarithm of each row's sum of exponentials, kept as a column and spread over the row again. -/
def blkLse (z : FVec Ideal S5000x16 .f32) : FVec Ideal S5000x16 .f32 :=
  broadcastTo S5000x16 (log (shapeCast S5000x1 (multiReduction .add [1] S5000 (exp z) 0x00000000#32 reduces_S5000x16_S5000 (.inl rfl) rfl) shapeCasts_S5000_S5000x1)) broadcasts_S5000x1_S5000x16

/-- The payload is the logits, shifted by the row maximum, less the logarithm of the row's sum of exponentials. -/
theorem pay_eq (x0 : Vec Ideal S5000x64 .f32) (x1 : Vec Ideal S1x64 .f32) (x2 : Vec Ideal S64x16 .f32) (x3 : Vec Ideal S1x16 .f32) :
    k2_pay1 x0 x1 x2 x3 = subf (subf (blkLogits x0 x1 x2 x3) (blkMax (blkLogits x0 x1 x2 x3))) (blkLse (subf (blkLogits x0 x1 x2 x3) (blkMax (blkLogits x0 x1 x2 x3)))) := rfl

/-- The index over row r with column k inserted. -/
theorem lift_eq (r : Fin 5000) (k : Fin 16) : reduces_S5000x16_S5000.lift (ix1 r) k = at2 r.val r.isLt k.val k.isLt :=
  funext fun a => Fin.ext (match a with
    | ⟨0, _⟩ => rfl
    | ⟨1, _⟩ => rfl)

/-- The spread row maximum at (r, c): the fold of max over row r. -/
theorem blkMax_apply (l : FVec Ideal S5000x16 .f32) (r : Fin 5000) (c : Fin 16) :
    blkMax l (ix2 r c) = (Finset.univ : Finset (Fin 16)).fold max (Ideal.ofBits .f32 0xFF800000#32) (fun j => l (at2 r.val r.isLt j.val j.isLt)) := by
  unfold blkMax
  refine (broadcastTo_a1_ab_apply _ _ r c).trans ?_
  refine (shapeCast_a_a1_apply _ _ r 0).trans ?_
  refine (Ideal.multiReduction_maximumf_single l _ reduces_S5000x16_S5000 _ _ (ix1 r)).trans ?_
  have e : (l ∘ reduces_S5000x16_S5000.lift (ix1 r)) = fun j : Fin 16 => l (at2 r.val r.isLt j.val j.isLt) :=
    funext fun j => congrArg l (lift_eq r j)
  exact congrArg (fun f : Fin 16 → EReal => (Finset.univ : Finset (Fin 16)).fold max (Ideal.ofBits .f32 0xFF800000#32) f) e

/-- The spread logarithm of the row's sum of exponentials at (r, c). -/
theorem blkLse_apply (z : FVec Ideal S5000x16 .f32) (r : Fin 5000) (c : Fin 16) :
    blkLse z (ix2 r c) = Ideal.log (∑ j : Fin 16, Ideal.exp (z (at2 r.val r.isLt j.val j.isLt))) := by
  unfold blkLse
  refine (broadcastTo_a1_ab_apply _ _ r c).trans ?_
  show Ideal.log (shapeCast S5000x1 (multiReduction .add [1] S5000 (exp z) 0x00000000#32 reduces_S5000x16_S5000 (.inl rfl) rfl) shapeCasts_S5000_S5000x1 (ix2 r (0 : Fin 1))) = _
  refine congrArg Ideal.log ?_
  refine (shapeCast_a_a1_apply _ _ r 0).trans ?_
  refine (Ideal.multiReduction_add_single (exp z) _ reduces_S5000x16_S5000 _ _ (ix1 r)).trans ?_
  show ∑ j : Fin 16, exp z (reduces_S5000x16_S5000.lift (ix1 r) j) = _
  refine Finset.sum_congr rfl fun j _ => ?_
  exact congrArg (fun i => Ideal.exp (z i)) (lift_eq r j)

/-- The hidden row after bias and relu at (r, k). -/
theorem blkHidden_apply (x0 : Vec Ideal S5000x64 .f32) (x1 : Vec Ideal S1x64 .f32) (r : Fin 5000) (k : Fin 64) :
    blkHidden x0 x1 (at2 r.val r.isLt k.val k.isLt) = max (x0 (at2 r.val r.isLt k.val k.isLt) + x1 (at2 0 Nat.one_pos k.val k.isLt)) (Ideal.ofBits .f32 0x00000000#32) := by
  unfold blkHidden
  rw [maximumf_apply, addf_apply, broadcast_apply, shapeCast_self, shapeCast_self, at2_eq_ix2 r k, broadcastTo_1b_ab_apply]
  rfl

/-- The block's logits at (r, c): the hidden row r after bias and relu times column c of the weights, plus the output bias. -/
theorem blkLogits_apply (x0 : Vec Ideal S5000x64 .f32) (x1 : Vec Ideal S1x64 .f32) (x2 : Vec Ideal S64x16 .f32) (x3 : Vec Ideal S1x16 .f32) (r : Fin 5000) (c : Fin 16) :
    blkLogits x0 x1 x2 x3 (at2 r.val r.isLt c.val c.isLt)
      = (∑ k : Fin 64, max (x0 (at2 r.val r.isLt k.val k.isLt) + x1 (at2 0 Nat.one_pos k.val k.isLt)) (Ideal.ofBits .f32 0x00000000#32) * x2 (at2 k.val k.isLt c.val c.isLt))
        + x3 (at2 0 Nat.one_pos c.val c.isLt) := by
  unfold blkLogits
  rw [addf_apply]
  simp only [matmul]
  rw [Ideal.matmul_constant_zero_apply, ← Equiv.sum_comp (ValueIdx.contrEquiv1 dot_S5000x64_S64x16_S5000x16_1_0_0_1_n_n 64 rfl rfl).symm]
  congr 1
  · refine Finset.sum_congr rfl fun k _ => ?_
    have hk := ValueIdx.contrEquiv1_symm_val dot_S5000x64_S64x16_S5000x16_1_0_0_1_n_n 64 rfl rfl k
    have el : dot_S5000x64_S64x16_S5000x16_1_0_0_1_n_n.lhsIdx (at2 r.val r.isLt c.val c.isLt) ((ValueIdx.contrEquiv1 dot_S5000x64_S64x16_S5000x16_1_0_0_1_n_n 64 rfl rfl).symm k) = at2 r.val r.isLt k.val k.isLt := funext fun a => Fin.ext (by
      match a with
      | ⟨0, _⟩ => exact lhs_0 _ _
      | ⟨1, _⟩ => exact (lhs_1 _ _).trans hk)
    have er : dot_S5000x64_S64x16_S5000x16_1_0_0_1_n_n.rhsIdx (at2 r.val r.isLt c.val c.isLt) ((ValueIdx.contrEquiv1 dot_S5000x64_S64x16_S5000x16_1_0_0_1_n_n 64 rfl rfl).symm k) = at2 k.val k.isLt c.val c.isLt := funext fun a => Fin.ext (by
      match a with
      | ⟨0, _⟩ => exact (rhs_0 _ _).trans hk
      | ⟨1, _⟩ => exact rhs_1 _ _)
    rw [truncf_apply, truncf_apply, el, er, blkHidden_apply]
  · rw [shapeCast_self, at2_eq_ix2 r c, broadcastTo_1b_ab_apply]
    rfl

/-- The shift and the log-sum-exp over any block of logits l, at (r, c): l(r, c) less row r's maximum, less the logarithm of the
    sum over the row of the exponentials of the shifted entries. -/
theorem tail_apply (l : FVec Ideal S5000x16 .f32) (r : Fin 5000) (c : Fin 16) :
    subf (subf l (blkMax l)) (blkLse (subf l (blkMax l))) (at2 r.val r.isLt c.val c.isLt)
      = (l (at2 r.val r.isLt c.val c.isLt)
          - (Finset.univ : Finset (Fin 16)).fold max (Ideal.ofBits .f32 0xFF800000#32) (fun j => l (at2 r.val r.isLt j.val j.isLt)))
        - Ideal.log (∑ j : Fin 16, Ideal.exp (l (at2 r.val r.isLt j.val j.isLt)
          - (Finset.univ : Finset (Fin 16)).fold max (Ideal.ofBits .f32 0xFF800000#32) (fun j => l (at2 r.val r.isLt j.val j.isLt)))) := by
  have hM : ∀ j : Fin 16, blkMax l (at2 r.val r.isLt j.val j.isLt)
      = (Finset.univ : Finset (Fin 16)).fold max (Ideal.ofBits .f32 0xFF800000#32) (fun j => l (at2 r.val r.isLt j.val j.isLt)) := fun j =>
    (congrArg (blkMax l) (at2_eq_ix2 r j)).trans (blkMax_apply l r j)
  have hL : blkLse (subf l (blkMax l)) (at2 r.val r.isLt c.val c.isLt)
      = Ideal.log (∑ j : Fin 16, Ideal.exp (subf l (blkMax l) (at2 r.val r.isLt j.val j.isLt))) :=
    (congrArg (blkLse (subf l (blkMax l))) (at2_eq_ix2 r c)).trans (blkLse_apply _ r c)
  rw [subf_apply, subf_apply, hL, hM c]
  refine congrArg (fun s => _ - Ideal.log s) (Finset.sum_congr rfl fun j _ => ?_)
  rw [subf_apply, hM j]

/-- One block's result at (r, c), over the block's logits: the shifted log-softmax of row r of the block. -/
theorem block_apply (x0 : Vec Ideal S5000x64 .f32) (x1 : Vec Ideal S1x64 .f32) (x2 : Vec Ideal S64x16 .f32) (x3 : Vec Ideal S1x16 .f32) (r : Fin 5000) (c : Fin 16) :
    k2_pay1 x0 x1 x2 x3 (at2 r.val r.isLt c.val c.isLt)
      = (blkLogits x0 x1 x2 x3 (at2 r.val r.isLt c.val c.isLt)
          - (Finset.univ : Finset (Fin 16)).fold max (Ideal.ofBits .f32 0xFF800000#32) (fun j => blkLogits x0 x1 x2 x3 (at2 r.val r.isLt j.val j.isLt)))
        - Ideal.log (∑ j : Fin 16, Ideal.exp (blkLogits x0 x1 x2 x3 (at2 r.val r.isLt j.val j.isLt)
          - (Finset.univ : Finset (Fin 16)).fold max (Ideal.ofBits .f32 0xFF800000#32) (fun j => blkLogits x0 x1 x2 x3 (at2 r.val r.isLt j.val j.isLt)))) :=
  (congrFun (pay_eq x0 x1 x2 x3) _).trans (tail_apply (blkLogits x0 x1 x2 x3) r c)

/-! ## From the blocks to the array -/

/-- The log-softmax at an index sees its row only: over any function f that the logits of row i0 agree with, it is f at the
    column, shifted by the fold of max over f, less the logarithm of the sum of the exponentials of the shifted f. -/
theorem logSoftmax_apply_of_row (L : S50000x16.Idx → EReal) (i : S50000x16.Idx) (f : Fin 16 → EReal) (c : Fin 16) (hc : (i 1).val = c.val)
    (hf : ∀ j : Fin 16, L (at2 (A := 50000) (B := 16) (i 0).val (i 0).isLt j.val j.isLt) = f j) :
    logSoftmax L i = (f c - (Finset.univ : Finset (Fin 16)).fold max (Ideal.ofBits .f32 0xFF800000#32) f)
      - Ideal.log (∑ j : Fin 16, Ideal.exp (f j - (Finset.univ : Finset (Fin 16)).fold max (Ideal.ofBits .f32 0xFF800000#32) f)) := by
  have hi : i = at2 (A := 50000) (B := 16) (i 0).val (i 0).isLt c.val c.isLt := funext fun a => Fin.ext (match a with
    | ⟨0, _⟩ => rfl
    | ⟨1, _⟩ => hc)
  have hM : rowMax L (i 0).val (i 0).isLt = (Finset.univ : Finset (Fin 16)).fold max (Ideal.ofBits .f32 0xFF800000#32) f :=
    congrArg (fun g : Fin 16 → EReal => (Finset.univ : Finset (Fin 16)).fold max (Ideal.ofBits .f32 0xFF800000#32) g) (funext hf)
  have hLi : L i = f c := (congrArg L hi).trans (hf c)
  unfold logSoftmax
  rw [hM, hLi]
  refine congrArg (fun s => _ - Ideal.log s) (Finset.sum_congr rfl fun j _ => ?_)
  rw [hf j]

/-- If row r of a block of the hidden array is row R of the whole array, and the block's two biases and weights are the whole
    arrays', then the block's logits along row r are the whole arrays' logits along row R. -/
theorem logits_of_rows (x0 : Vec Ideal S5000x64 .f32) (x1 : Vec Ideal S1x64 .f32) (x2 : Vec Ideal S64x16 .f32) (x3 : Vec Ideal S1x16 .f32)
    (a : S50000x64.Idx → EReal) (b : S1x64.Idx → EReal) (w : S64x16.Idx → EReal) (bias : S1x16.Idx → EReal) (r : Fin 5000) (R : Fin 50000) (j : Fin 16)
    (ha : ∀ k : Fin 64, x0 (at2 (A := 5000) (B := 64) r.val r.isLt k.val k.isLt) = a (at2 (A := 50000) (B := 64) R.val R.isLt k.val k.isLt))
    (hb : ∀ k : Fin 64, x1 (at2 (A := 1) (B := 64) 0 Nat.one_pos k.val k.isLt) = b (at2 (A := 1) (B := 64) 0 Nat.one_pos k.val k.isLt))
    (hw : ∀ k : Fin 64, x2 (at2 (A := 64) (B := 16) k.val k.isLt j.val j.isLt) = w (at2 (A := 64) (B := 16) k.val k.isLt j.val j.isLt))
    (hbias : x3 (at2 (A := 1) (B := 16) 0 Nat.one_pos j.val j.isLt) = bias (at2 (A := 1) (B := 16) 0 Nat.one_pos j.val j.isLt)) :
    blkLogits x0 x1 x2 x3 (at2 (A := 5000) (B := 16) r.val r.isLt j.val j.isLt) = logits a b w bias (at2 (A := 50000) (B := 16) R.val R.isLt j.val j.isLt) := by
  refine (blkLogits_apply x0 x1 x2 x3 r j).trans ?_
  show _ = (∑ k : Fin 64, max (a (at2 (A := 50000) (B := 64) R.val R.isLt k.val k.isLt) + b (at2 (A := 1) (B := 64) 0 Nat.one_pos k.val k.isLt)) (Ideal.ofBits .f32 0x00000000#32)
        * w (at2 (A := 64) (B := 16) k.val k.isLt j.val j.isLt)) + bias (at2 (A := 1) (B := 16) 0 Nat.one_pos j.val j.isLt)
  rw [hbias]
  refine congrArg (· + _) (Finset.sum_congr rfl fun k _ => ?_)
  rw [ha k, hb k, hw k]

variable (V : (c : Dev nD) → (b : Ref sig .tc) → Buf (Elt Ideal) ((c : Thread nD τ).loc b))

/-- The index maps over the ten grid points: the row block of the hidden array and of the result is the point's number, the
    two biases' and the weights' blocks are the whole arrays, and no column is cut. -/
theorem index_facts : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0
    ∧ win2_4.index t (0 : Fin 2) ≤ 9 :=
  (by decide +kernel : ∀ t : Fin grid2.N, _)

/-- Every row block is some point's. -/
theorem index_onto : ∀ q : Fin 10, ∃ t : Fin cfg2.N, win2_4.index t = ![q.val, 0] :=
  (by decide +kernel : ∀ q : Fin 10, ∃ t : Fin grid2.N, win2_4.index t = ![q.val, 0])

/-- Row r of point t's blocks is row 5000 t + r of the arrays: the block's logits along that row are the arrays' logits along it. -/
theorem block_logits (c : Dev nD) (t : Fin cfg2.N) (y : S5000x16.Idx) (hy0 : (y 0).val < 5000) (j : Fin 16) :
    blkLogits (iblk2 V c 0 t) (iblk2 V c 1 t) (iblk2 V c 2 t) (iblk2 V c 3 t) (at2 (A := 5000) (B := 16) (y 0).val hy0 j.val j.isLt)
      = logits (V c main_v57) (V c main_v58) (V c main_arg6) (V c main_v59)
          (at2 (A := 50000) (B := 16) ((((cfg2.win 4).blk t).view.emb y) 0).val ((((cfg2.win 4).blk t).view.emb y) 0).isLt j.val j.isLt) := by
  obtain ⟨e0, e1, e2, e3, e4, e5, e6, e7, e8, e9⟩ := index_facts t
  have ha : ∀ k : Fin 64, iblk2 V c 0 t (at2 (A := 5000) (B := 64) (y 0).val hy0 k.val k.isLt)
      = V c main_v57 (at2 (A := 50000) (B := 64) ((((cfg2.win 4).blk t).view.emb y) 0).val ((((cfg2.win 4).blk t).view.emb y) 0).isLt k.val k.isLt) := fun k => by
    show V c main_v57 (((cfg2.win 0).blk t).view.emb (at2 (A := 5000) (B := 64) (y 0).val hy0 k.val k.isLt)) = _
    refine congrArg (V c main_v57) (funext fun a => Fin.ext ?_)
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 64 + 1 * k.val = k.val; omega
  have hb : ∀ k : Fin 64, iblk2 V c 1 t (at2 (A := 1) (B := 64) 0 Nat.one_pos k.val k.isLt) = V c main_v58 (at2 (A := 1) (B := 64) 0 Nat.one_pos k.val k.isLt) := fun k => by
    show V c main_v58 (((cfg2.win 1).blk t).view.emb (at2 (A := 1) (B := 64) 0 Nat.one_pos k.val k.isLt)) = _
    refine congrArg (V c main_v58) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  have hw : ∀ k : Fin 64, iblk2 V c 2 t (at2 (A := 64) (B := 16) k.val k.isLt j.val j.isLt) = V c main_arg6 (at2 (A := 64) (B := 16) k.val k.isLt j.val j.isLt) := fun k => by
    show V c main_arg6 (((cfg2.win 2).blk t).view.emb (at2 (A := 64) (B := 16) k.val k.isLt j.val j.isLt)) = _
    refine congrArg (V c main_arg6) (funext fun a => Fin.ext ?_)
    match a with
    | ⟨0, _⟩ => show win2_2.index t (0 : Fin 2) * 64 + 1 * k.val = k.val; omega
    | ⟨1, _⟩ => show win2_2.index t (1 : Fin 2) * 16 + 1 * j.val = j.val; omega
  have hbias : iblk2 V c 3 t (at2 (A := 1) (B := 16) 0 Nat.one_pos j.val j.isLt) = V c main_v59 (at2 (A := 1) (B := 16) 0 Nat.one_pos j.val j.isLt) := by
    show V c main_v59 (((cfg2.win 3).blk t).view.emb (at2 (A := 1) (B := 16) 0 Nat.one_pos j.val j.isLt)) = _
    refine congrArg (V c main_v59) (funext fun a => Fin.ext ?_)
    match a with
    | ⟨0, _⟩ => show win2_3.index t (0 : Fin 2) * 1 + 1 * 0 = 0; omega
    | ⟨1, _⟩ => show win2_3.index t (1 : Fin 2) * 16 + 1 * j.val = j.val; omega
  exact logits_of_rows (iblk2 V c 0 t) (iblk2 V c 1 t) (iblk2 V c 2 t) (iblk2 V c 3 t) (V c main_v57) (V c main_v58) (V c main_arg6) (V c main_v59)
    ⟨(y 0).val, hy0⟩ ⟨((((cfg2.win 4).blk t).view.emb y) 0).val, ((((cfg2.win 4).blk t).view.emb y) 0).isLt⟩ j ha hb hw hbias

/-- What point t writes back is block t of the log-softmax of the logits of the arrays as the region finds them. -/
theorem block_eq (c : Dev nD) (t : Fin cfg2.N) :
    (dat2 V c).flushed 4 t = ((cfg2.win 4).blk t).view.read (Elt Ideal) (logSoftmax (logits (V c main_v57) (V c main_v58) (V c main_arg6) (V c main_v59))) := by
  show (cfg2.win 4).cut (grid2.coords t) ((dat2 V c).after 4 t) = _
  rw [after2_4]
  unfold out2_4
  rw [View.canon_unit_zero origin]
  simp only [View.ld_unit_zero (S := S5000x64) origin, View.ld_unit_zero (S := S1x64) origin, View.ld_unit_zero (S := S64x16) origin, View.ld_unit_zero (S := S1x16) origin]
  obtain ⟨e0, e1, e2, e3, e4, e5, e6, e7, e8, e9⟩ := index_facts t
  funext y
  show k2_pay1 (iblk2 V c 0 t) (iblk2 V c 1 t) (iblk2 V c 2 t) (iblk2 V c 3 t) y
    = logSoftmax (logits (V c main_v57) (V c main_v58) (V c main_arg6) (V c main_v59)) (((cfg2.win 4).blk t).view.emb y)
  have hy0 : (y 0).val < 5000 := (y 0).isLt
  have hy1 : (y 1).val < 16 := (y 1).isLt
  have ey : y = at2 (A := 5000) (B := 16) (y 0).val hy0 (y 1).val hy1 := funext fun a => match a with
    | ⟨0, _⟩ => rfl
    | ⟨1, _⟩ => rfl
  refine (congrArg (k2_pay1 (iblk2 V c 0 t) (iblk2 V c 1 t) (iblk2 V c 2 t) (iblk2 V c 3 t)) ey).trans ?_
  refine (block_apply (iblk2 V c 0 t) (iblk2 V c 1 t) (iblk2 V c 2 t) (iblk2 V c 3 t) ⟨(y 0).val, hy0⟩ ⟨(y 1).val, hy1⟩).trans ?_
  refine (logSoftmax_apply_of_row _ (((cfg2.win 4).blk t).view.emb y)
    (fun j => blkLogits (iblk2 V c 0 t) (iblk2 V c 1 t) (iblk2 V c 2 t) (iblk2 V c 3 t) (at2 (A := 5000) (B := 16) (y 0).val hy0 j.val j.isLt))
    ⟨(y 1).val, hy1⟩ ?_ (fun j => (block_logits V c t y hy0 j).symm)).symm
  show win2_4.index t (1 : Fin 2) * 16 + 1 * (y 1).val = (y 1).val
  omega

/-- An index of the array is in point t's block iff each coordinate is in the block's range on its axis. -/
theorem mem_block (t : Fin cfg2.N) (i : S50000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v60).slice (win2_4.rect t)).set ↔ _
  rw [View.set_slice_whole, Rect.mem_set_unit]
  exact Iff.rfl

/-- Every index of the array lies in the block of the point numbered by its row divided by 5000. -/
theorem covered (i : S50000x16.Idx) : ∃ t : Fin cfg2.N, (cfg2.win 4).flush t = true ∧ i ∈ ((cfg2.win 4).blk t).view.set := by
  have hi0 : (i 0).val < 50000 := (i 0).isLt
  have hi1 : (i 1).val < 16 := (i 1).isLt
  obtain ⟨t, ht⟩ := index_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- The array the region leaves is the shifted log-softmax of the logits of the four arrays it found. -/
theorem array_eq (c : Dev nD) : (dat2 V c).arrAt 4 cfg2.N = logSoftmax (logits (V c main_v57) (V c main_v58) (V c main_arg6) (V c main_v59)) :=
  (dat2 V c).arrAt_eq_of_cover 4 _ (fun t _ => block_eq V c t) covered

end Cert.KernelIdeal.LogSoftmax2

end
-- ==== Proof.SoftmaxStage.lean ====
/-
  The reference's last layer and its log-softmax are the function the third region computes. The reference adds the
  hidden bias (the vector broadcast first to one row, then over all rows) to its second aggregation, clamps at zero, takes
  the host product with the 64 x 16 weights and adds the output bias likewise: entry (r, j) is the sum over k of
  max (a[r, k] + b[k]) 0 * w[k, j], plus bias[j], the two bias rows of the kernel being the same vectors viewed as one
  row. Its log-softmax reduces each row with max from the value of 0xFF800000, takes the maximum of that with the same
  value once more (which changes nothing: the fold already starts from it), subtracts, and subtracts the logarithm of
  zero plus the row's sum of exponentials.
-/
import proofs.«133095_j75256416961205_1_alg».proof.Proof.RefRead
import proofs.«133095_j75256416961205_1_alg».proof.Proof.LogSoftmax2
import Idealize.ShloMosaic.Lib.ValueLayout

set_option maxRecDepth 16384

noncomputable section

namespace Cert.ReferenceIdeal.SoftmaxStage

open Idealize.ShloMosaic Idealize.ShloMosaic.TcCoe Idealize.SL.Sem Idealize.ShloMosaic.ValueIdx
open Cert.ReferenceIdeal Cert.ReferenceIdeal.ReadP
open Cert.KernelIdeal.Product0 (at2)
open Cert.KernelIdeal.LogSoftmax2 (logits rowMax logSoftmax)

/-! ## Two general facts -/

/-- The maximum of the start value with a fold of max from that same start value is the fold. -/
theorem max_fold_max_self {ι : Type} (s : Finset ι) (b : EReal) (f : ι → EReal) : max b (s.fold max b f) = s.fold max b f :=
  max_eq_right ((Finset.le_fold_max b).2 (Or.inl le_rfl))

/-- The index over row r with column k inserted. -/
theorem lift_eq (h : S50000x16.Reduces [1] S50000) (r : Fin 50000) (k : Fin 16) : h.lift (ix1 r) k = at2 (A := 50000) (B := 16) r.val r.isLt k.val k.isLt :=
  funext fun a => Fin.ext (match a with
    | ⟨0, _⟩ => rfl
    | ⟨1, _⟩ => rfl)

/-- The host's reduce with a maximum body over the columns, at row r: the fold of max over the row from the initial value. -/
theorem hostRowMax (L : S50000x16.Idx → EReal) (init : S_.Idx → EReal) (h' : S50000x16.ReducesTo [1] S50000) (hu : 0 < S_.numel) (r : Fin 50000) :
    Host.reduce (FloatOps.maximumf (F := Ideal) (φ := .f32)) L init h' hu (ix1 r)
      = (Finset.univ : Finset (Fin 16)).fold max (init (Shape.Idx.first hu)) (fun j => L (at2 (A := 50000) (B := 16) r.val r.isLt j.val j.isLt)) := by
  have h : S50000x16.Reduces [1] S50000 := by decide
  refine (Host.reduce_eq_fold_single (FloatOps.maximumf (F := Ideal) (φ := .f32)) L init h' h hu (ix1 r)).trans ?_
  have e : (L ∘ h.lift (ix1 r)) = fun j : Fin 16 => L (at2 (A := 50000) (B := 16) r.val r.isLt j.val j.isLt) := funext fun j => congrArg L (lift_eq h r j)
  exact congrArg (fun f : Fin 16 → EReal => (Finset.univ : Finset (Fin 16)).fold max (init (Shape.Idx.first hu)) f) e

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))

/-! ## The logits -/

/-- The hidden bias vector viewed as one row, read at column k. -/
theorem biasRow64_apply (k : Fin 64) :
    shapeCast Cert.KernelIdeal.S1x64 x5 Cert.KernelIdeal.Facts₀.shapeCasts_S64_S1x64 (at2 (A := 1) (B := 64) 0 Nat.one_pos k.val k.isLt) = x5 (ix1 k) :=
  shapeCast_a_1a_apply x5 Cert.KernelIdeal.Facts₀.shapeCasts_S64_S1x64 (0 : Fin 1) k

/-- The output bias vector viewed as one row, read at column j. -/
theorem biasRow16_apply (j : Fin 16) :
    shapeCast Cert.KernelIdeal.S1x16 x7 Cert.KernelIdeal.Facts₀.shapeCasts_S16_S1x16 (at2 (A := 1) (B := 16) 0 Nat.one_pos j.val j.isLt) = x7 (ix1 j) :=
  shapeCast_a_1a_apply x7 Cert.KernelIdeal.Facts₀.shapeCasts_S16_S1x16 (0 : Fin 1) j

/-- The reference's last product, over its bias and clamp and under its output bias, is `logits` of its second aggregation. -/
theorem logits_eq : val_main_v92 (F := Ideal) x0 x1 x2 x3 x4 x5 x6 x7
    = logits (val_main_v84 (F := Ideal) x0 x1 x2 x3 x4) (shapeCast Cert.KernelIdeal.S1x64 x5 Cert.KernelIdeal.Facts₀.shapeCasts_S64_S1x64) x6
        (shapeCast Cert.KernelIdeal.S1x16 x7 Cert.KernelIdeal.Facts₀.shapeCasts_S16_S1x16) := by
  funext i
  rw [val_main_v92_apply, val_main_v89_apply, val_main_v91_apply, val_main_v90_apply]
  unfold logits
  have e7 : idx_main_v90 (idx_main_v91 i) = ix1 (⟨(i 1).val, (i 1).isLt⟩ : Fin 16) :=
    funext fun a => by match a with | ⟨0, _⟩ => rfl
  rw [e7, biasRow16_apply x7 ⟨(i 1).val, (i 1).isLt⟩]
  refine congrArg (fun s : EReal => s + x7 (ix1 (⟨(i 1).val, (i 1).isLt⟩ : Fin 16))) (Finset.sum_congr rfl fun k _ => ?_)
  rw [val_main_v88_apply, val_main_v87_apply, val_main_v86_apply, val_main_v85_apply, val_main_call3_v0_apply, val_main_call3_cst_apply]
  have eb : idx_main_v85 (idx_main_v86 (lidx_main_v89 i k)) = ix1 k :=
    funext fun a => by match a with | ⟨0, _⟩ => rfl
  have el : lidx_main_v89 i k = at2 (A := 50000) (B := 64) (i 0).val (i 0).isLt k.val k.isLt :=
    funext fun a => by match a with | ⟨0, _⟩ => rfl | ⟨1, _⟩ => rfl
  have er : ridx_main_v89 i k = at2 (A := 64) (B := 16) k.val k.isLt (i 1).val (i 1).isLt :=
    funext fun a => by match a with | ⟨0, _⟩ => rfl | ⟨1, _⟩ => rfl
  rw [eb, el, er, biasRow64_apply]
  rfl

/-! ## The log-softmax -/

/-- The reference's row maximum, spread over the row, is the fold of max over the row of its logits. -/
theorem rowMax_apply (i : S50000x16.Idx) :
    val_main_call4_v4 (F := Ideal) x0 x1 x2 x3 x4 x5 x6 x7 i = rowMax (val_main_v92 (F := Ideal) x0 x1 x2 x3 x4 x5 x6 x7) (i 0).val (i 0).isLt := by
  rw [val_main_call4_v4_apply, val_main_call4_v3_apply, val_main_call4_v2_apply, val_main_call4_v1_apply, val_main_call4_cst_0_apply]
  have e : idx_main_call4_v3 (idx_main_call4_v4 i) = ix1 (⟨(i 0).val, (i 0).isLt⟩ : Fin 50000) :=
    funext fun a => by match a with | ⟨0, _⟩ => rfl
  rw [e]
  unfold val_main_call4_v0
  rw [hostRowMax (val_main_v92 (F := Ideal) x0 x1 x2 x3 x4 x5 x6 x7) (val_main_call4_cst (F := Ideal)) Gen.reducesTo_S50000x16_S50000_d1 Gen.h_S_ ⟨(i 0).val, (i 0).isLt⟩,
    val_main_call4_cst_apply]
  unfold rowMax
  exact max_fold_max_self _ _ _

/-- The reference's shifted logits. -/
theorem shifted_apply (i : S50000x16.Idx) :
    val_main_call4_v5 (F := Ideal) x0 x1 x2 x3 x4 x5 x6 x7 i
      = val_main_v92 (F := Ideal) x0 x1 x2 x3 x4 x5 x6 x7 i - rowMax (val_main_v92 (F := Ideal) x0 x1 x2 x3 x4 x5 x6 x7) (i 0).val (i 0).isLt := by
  rw [val_main_call4_v5_apply, rowMax_apply]
  rfl

/-- The reference's row sum of exponentials: zero plus the sum over the row of the exponentials of the shifted logits. -/
theorem expSum_apply (r : S50000.Idx) :
    val_main_call4_v7 (F := Ideal) x0 x1 x2 x3 x4 x5 x6 x7 r = ∑ k : Fin 16, Ideal.exp (val_main_call4_v5 (F := Ideal) x0 x1 x2 x3 x4 x5 x6 x7 (idx_main_call4_v7 r k)) := by
  rw [val_main_call4_v7_apply, val_main_call4_cst_1_apply, Ideal.ofBits_def, Ideal.ofBits_zero_f32, zero_add]
  refine Finset.sum_congr rfl fun k _ => ?_
  rw [val_main_call4_v6_apply, Ideal.hostUnary_exp_def]

/-- The reference's logarithm of the row sum, spread over the row. -/
theorem lse_apply (i : S50000x16.Idx) :
    val_main_call4_v10 (F := Ideal) x0 x1 x2 x3 x4 x5 x6 x7 i = Ideal.log (val_main_call4_v7 (F := Ideal) x0 x1 x2 x3 x4 x5 x6 x7 (idx_main_call4_v8 (idx_main_call4_v10 i))) := by
  rw [val_main_call4_v10_apply, val_main_call4_v9_apply, val_main_call4_v8_apply, Ideal.hostUnary_log_def]

/-- The reference's log-softmax is `logSoftmax` of its logits. -/
theorem softmax_eq : val_main_v93 (F := Ideal) x0 x1 x2 x3 x4 x5 x6 x7 = logSoftmax (val_main_v92 (F := Ideal) x0 x1 x2 x3 x4 x5 x6 x7) := by
  funext i
  rw [val_main_v93_apply, lse_apply, expSum_apply, shifted_apply]
  unfold logSoftmax
  refine congrArg (fun s : EReal => (val_main_v92 (F := Ideal) x0 x1 x2 x3 x4 x5 x6 x7 i - rowMax (val_main_v92 (F := Ideal) x0 x1 x2 x3 x4 x5 x6 x7) (i 0).val (i 0).isLt) - Ideal.log s)
    (Finset.sum_congr rfl fun k _ => ?_)
  have e : idx_main_call4_v7 (idx_main_call4_v8 (idx_main_call4_v10 i)) k = at2 (A := 50000) (B := 16) (i 0).val (i 0).isLt k.val k.isLt :=
    funext fun a => by match a with | ⟨0, _⟩ => rfl | ⟨1, _⟩ => rfl
  rw [shifted_apply, e]

/-- The reference's result is the shifted log-softmax of the logits of its second aggregation, the two bias vectors viewed as rows. -/
theorem logSoftmax_eq : val_main_v93 (F := Ideal) x0 x1 x2 x3 x4 x5 x6 x7 = Cert.KernelIdeal.LogSoftmax2.logSoftmax (Cert.KernelIdeal.LogSoftmax2.logits (val_main_v84 (F := Ideal) x0 x1 x2 x3 x4) (shapeCast Cert.KernelIdeal.S1x64 x5 Cert.KernelIdeal.Facts₀.shapeCasts_S64_S1x64) x6 (shapeCast Cert.KernelIdeal.S1x16 x7 Cert.KernelIdeal.Facts₀.shapeCasts_S16_S1x16)) := by
  rw [softmax_eq, logits_eq]

end Cert.ReferenceIdeal.SoftmaxStage

end
-- ==== Proof.KernelValue.lean ====
/-
  The kernel program's result as the reference's last stage. From the launch memory the first three host stretches build
  the edge lists and the edge normalization; the first region leaves x * W1; the fourth stretch aggregates it over the
  edges; the second region leaves the clamped, biased aggregation times W2; the fifth stretch aggregates that; the
  third region leaves the row-wise shifted log-softmax of the clamped, biased aggregation times Wfc plus its bias. Each
  of these values is the reference's stage of the same name in the computation, so the result buffer ends at the
  reference's final stage of the eight arguments.
-/
import proofs.«133095_j75256416961205_1_alg».proof.Proof.KernelRun
import proofs.«133095_j75256416961205_1_alg».proof.Proof.Boundaries
import proofs.«133095_j75256416961205_1_alg».proof.Proof.HostSide
import proofs.«133095_j75256416961205_1_alg».proof.Proof.DenseStages
import proofs.«133095_j75256416961205_1_alg».proof.Proof.LogSoftmax2
import proofs.«133095_j75256416961205_1_alg».proof.Proof.SoftmaxStage

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## The edge lists and the normalization at the first region's entry -/

theorem W1_sources (c : Dev nD) : W1 m ρ c (Proc.devRef .tc main_v3) = val_main_v3 (F := Ideal) (a1 m c) :=
  HostSide.sources (W0 m ρ c) (a1 m c) rfl
theorem W1_targets (c : Dev nD) : W1 m ρ c (Proc.devRef .tc main_v6) = val_main_v6 (F := Ideal) (a1 m c) :=
  HostSide.targets (W0 m ρ c) (a1 m c) rfl

theorem W2_sources (c : Dev nD) : W2 m ρ c (Proc.devRef .tc main_v3) = val_main_v3 (F := Ideal) (a1 m c) :=
  (HostSide.keep0_1 (W1 m ρ c) main_v3 (Or.inl rfl)).trans (W1_sources m ρ c)
theorem W2_targets (c : Dev nD) : W2 m ρ c (Proc.devRef .tc main_v6) = val_main_v6 (F := Ideal) (a1 m c) :=
  (HostSide.keep0_1 (W1 m ρ c) main_v6 (Or.inr rfl)).trans (W1_targets m ρ c)
theorem W2_invSqrtDegree (c : Dev nD) : W2 m ρ c (Proc.devRef .tc main_v14) = val_main_v15 (F := Ideal) (a1 m c) :=
  HostSide.invSqrtDegree (W1 m ρ c) (a1 m c) (HostSide.degreePositive (W0 m ρ c) (a1 m c) rfl)
    (HostSide.degreeRsqrt (W0 m ρ c) (a1 m c) rfl) (HostSide.zeroScalar (W0 m ρ c))

theorem W3_sources (c : Dev nD) : W3 m ρ c (Proc.devRef .tc main_v3) = val_main_v3 (F := Ideal) (a1 m c) :=
  (HostSide.keep0_2 (W2 m ρ c) main_v3 (Or.inl rfl)).trans (W2_sources m ρ c)
theorem W3_targets (c : Dev nD) : W3 m ρ c (Proc.devRef .tc main_v6) = val_main_v6 (F := Ideal) (a1 m c) :=
  (HostSide.keep0_2 (W2 m ρ c) main_v6 (Or.inr rfl)).trans (W2_targets m ρ c)
theorem W3_edgeNorm (c : Dev nD) : W3 m ρ c (Proc.devRef .tc main_v30) = val_main_v38 (F := Ideal) (a1 m c) :=
  HostSide.edgeNorm (W2 m ρ c) (a1 m c) (W2_sources m ρ c) (W2_targets m ρ c) (W2_invSqrtDegree m ρ c)

/-! ## The first layer -/

theorem W4_product (c : Dev nD) : W4 m ρ c (Proc.devRef .tc main_v31) = val_main_v7 (F := Ideal) (a0 m c) (a2 m c) :=
  (Boundaries.W4_main_v31 m ρ c).trans (Cert.ReferenceIdeal.DenseStages.product_eq (a0 m c) (a2 m c)).symm

theorem W5_aggregate1 (c : Dev nD) : W5 m ρ c (Proc.devRef .tc main_v43) = val_main_v43 (F := Ideal) (a0 m c) (a1 m c) (a2 m c) :=
  HostSide.aggregate1 (W4 m ρ c) (a0 m c) (a1 m c) (a2 m c) (W4_product m ρ c)
    ((W4_of_ne m ρ c main_v3 (by decide)).trans (W3_sources m ρ c))
    ((W4_of_ne m ρ c main_v6 (by decide)).trans (W3_targets m ρ c))
    ((W4_of_ne m ρ c main_v30 (by decide)).trans (W3_edgeNorm m ρ c))

/-! ## The second layer -/

theorem W6_hidden (c : Dev nD) :
    W6 m ρ c (Proc.devRef .tc main_v45) = val_main_v48 (F := Ideal) (a0 m c) (a1 m c) (a2 m c) (a3 m c) (a4 m c) := by
  refine (Boundaries.W6_main_v45 m ρ c).trans ?_
  rw [W5_aggregate1]
  exact (Cert.ReferenceIdeal.DenseStages.hidden_eq (a0 m c) (a1 m c) (a2 m c) (a3 m c) (a4 m c)).symm

theorem W6_sources (c : Dev nD) : W6 m ρ c (Proc.devRef .tc main_v3) = val_main_v3 (F := Ideal) (a1 m c) :=
  (Boundaries.W6_of_W3 m ρ c main_v3 (by decide) (by decide) (HostSide.keep1 (W4 m ρ c) main_v3 (Or.inl rfl))).trans (W3_sources m ρ c)
theorem W6_targets (c : Dev nD) : W6 m ρ c (Proc.devRef .tc main_v6) = val_main_v6 (F := Ideal) (a1 m c) :=
  (Boundaries.W6_of_W3 m ρ c main_v6 (by decide) (by decide) (HostSide.keep1 (W4 m ρ c) main_v6 (Or.inr (Or.inl rfl)))).trans (W3_targets m ρ c)
theorem W6_edgeNorm (c : Dev nD) : W6 m ρ c (Proc.devRef .tc main_v30) = val_main_v79 (F := Ideal) (a1 m c) :=
  ((Boundaries.W6_of_W3 m ρ c main_v30 (by decide) (by decide) (HostSide.keep1 (W4 m ρ c) main_v30 (Or.inr (Or.inr rfl)))).trans (W3_edgeNorm m ρ c)).trans
    (HostSide.edgeNorm_again (a1 m c)).symm

theorem W7_aggregate2 (c : Dev nD) :
    W7 m ρ c (Proc.devRef .tc main_v57) = val_main_v84 (F := Ideal) (a0 m c) (a1 m c) (a2 m c) (a3 m c) (a4 m c) :=
  HostSide.aggregate2 (W6 m ρ c) (a0 m c) (a1 m c) (a2 m c) (a3 m c) (a4 m c) (W6_hidden m ρ c) (W6_sources m ρ c) (W6_targets m ρ c) (W6_edgeNorm m ρ c)

/-! ## The result -/

/-- The result buffer's final contents are the reference's last stage of the arguments. -/
theorem result_eq (c : Dev nD) :
    W8 m ρ c (Proc.devRef .tc main_v60)
      = val_main_v93 (F := Ideal) (a0 m c) (a1 m c) (a2 m c) (a3 m c) (a4 m c) (a5 m c) (a6 m c) (a7 m c) := by
  refine (W8_arr m ρ c 4).trans ((LogSoftmax2.array_eq (V7 m ρ) c).trans ?_)
  show LogSoftmax2.logSoftmax (LogSoftmax2.logits (W7 m ρ c (Proc.devRef .tc main_v57)) (W7 m ρ c (Proc.devRef .tc main_v58))
    (W7 m ρ c (Proc.devRef .tc main_arg6)) (W7 m ρ c (Proc.devRef .tc main_v59))) = _
  rw [W7_aggregate2, Boundaries.W7_main_v58, Boundaries.W7_main_arg6, Boundaries.W7_main_v59]
  exact (Cert.ReferenceIdeal.SoftmaxStage.logSoftmax_eq (a0 m c) (a1 m c) (a2 m c) (a3 m c) (a4 m c) (a5 m c) (a6 m c) (a7 m c)).symm

end Cert.KernelIdeal.KernelValue

end
-- ==== Proof.lean ====
/-
  A two-layer graph convolution followed by a linear layer and a row-wise log-softmax: the kernel program runs its three
  dense stages (x * W1; the clamped, biased first aggregation times W2; the clamped, biased second aggregation times Wfc
  plus its bias, then the shifted log-softmax of each row) on the matrix unit in blocks of 5000 rows, and leaves the
  gather / scatter-add aggregation over the edges to the host; the reference does all of it on the host. At the extended
  reals a blocked product into a zero accumulator is the whole product, rounding the operands to bf16 is the identity, the
  row maximum from minus infinity is the reference's maximum of minus infinity with the same fold, and the host stretches
  are the same operations on both sides, so the two programs end with the same array. Both frames of the kernel program
  are the generated ones, the reference's is its run with the result dropped, and nothing was rewritten by the
  idealization, so the fourth conjunct is trivial.
-/
import proofs.«133095_j75256416961205_1_alg».proof.Defs
import proofs.«133095_j75256416961205_1_alg».proof.Proof.Gen.Kernel
import proofs.«133095_j75256416961205_1_alg».proof.Proof.Gen.Kernel.Skeleton
import proofs.«133095_j75256416961205_1_alg».proof.Proof.Gen.Kernel.Launch
import proofs.«133095_j75256416961205_1_alg».proof.Proof.Gen.Kernel.Points
import proofs.«133095_j75256416961205_1_alg».proof.Proof.Gen.Kernel.Frame
import proofs.«133095_j75256416961205_1_alg».proof.Proof.Gen.KernelIdeal
import proofs.«133095_j75256416961205_1_alg».proof.Proof.Gen.KernelIdeal.Skeleton
import proofs.«133095_j75256416961205_1_alg».proof.Proof.Gen.KernelIdeal.Launch
import proofs.«133095_j75256416961205_1_alg».proof.Proof.Gen.KernelIdeal.Points
import proofs.«133095_j75256416961205_1_alg».proof.Proof.Gen.KernelIdeal.Frame
import proofs.«133095_j75256416961205_1_alg».proof.Proof.Gen.ReferenceIdeal
import proofs.«133095_j75256416961205_1_alg».proof.Proof.Gen.Pre_finite_inputs
import proofs.«133095_j75256416961205_1_alg».proof.Proof.RefRun
import proofs.«133095_j75256416961205_1_alg».proof.Proof.RefRead
import proofs.«133095_j75256416961205_1_alg».proof.Proof.KernelRun
import proofs.«133095_j75256416961205_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs, from memories that agree on the eight arguments, end with the result at the reference's last stage
    of those arguments. -/
theorem algebraic : Cert.algebraic_KernelIdeal_ReferenceIdeal := by
  intro m ρ m' ρ' _ hagree
  refine ⟨fun c => Cert.ReferenceIdeal.ReadP.val_main_v93 (F := Ideal) (Cert.KernelIdeal.KernelValue.a0 m c) (Cert.KernelIdeal.KernelValue.a1 m c)
      (Cert.KernelIdeal.KernelValue.a2 m c) (Cert.KernelIdeal.KernelValue.a3 m c) (Cert.KernelIdeal.KernelValue.a4 m c) (Cert.KernelIdeal.KernelValue.a5 m c)
      (Cert.KernelIdeal.KernelValue.a6 m c) (Cert.KernelIdeal.KernelValue.a7 m c), ?_, ?_⟩
  · exact (θ_run Cert.KernelIdeal.defs _ _).mono
      (fun r h c => ⟨(h c).1.trans (Cert.KernelIdeal.KernelValue.result_eq m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v93_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
